-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S262144 : Shape := ⟨1, ![262144]⟩
abbrev S8x32x512 : Shape := ⟨3, ![8, 32, 512]⟩
abbrev S8x32 : Shape := ⟨2, ![8, 32]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S8x32x512 : S_.BroadcastsInDim S8x32x512 (![] : Fin 0 → Fin S8x32x512.rank)
  reducesTo_S8x32x512_S_d0_1_2 : S8x32x512.ReducesTo [0, 1, 2] S_
  bcast_S_S8x32 : S_.BroadcastsInDim S8x32 (![] : Fin 0 → Fin S8x32.rank)
  reducesTo_S8x32_S_d0_1 : S8x32.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg1 : IVec S262144 32) (main_v13 : IVec S_ 1) (main_v15 : IVec S262144 1) (main_c_5 : IVec S_ 32) : IVec S_ 1 :=
  let main_v16 : IVec S262144 32 := broadcastInDim S262144 ![] bcast_S_S262144 main_c_5
  let main_v17 : IVec S262144 1 := cmpi .slt main_arg1 main_v16
  let main_v18 : IVec S262144 1 := andi main_v15 main_v17
  let main_c_6 : IVec S_ 1 := constantI S_ 1 1#1
  let main_v19 : IVec S_ 1 := (fun x v => Host.reduce IntOp.andi x v reducesTo_S262144_S_d0 h_S_) main_v18 main_c_6
  let main_v20 : IVec S_ 1 := andi main_v13 main_v19
  main_v20

def fn {F : FTy → Type} [FloatOps F] (main_arg0 : FVec F S262144x512 .f32) (main_arg1 : IVec S262144 32) (main_arg2 : FVec F S8x32x512 .f32) (main_arg3 : FVec F S8x32 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S8x32x512 .f32 := Host.absf main_arg2
  let main_cst_0 : FVec F S_ .f32 := constant S_ .f32 0x7F800000#32
  let main_v5 : FVec F S8x32x512 .f32 := broadcastInDim S8x32x512 ![] bcast_S_S8x32x512 main_cst_0
  let main_v6 : IVec S8x32x512 1 := cmpf .olt main_v4 main_v5
  let main_c_1 : IVec S_ 1 := constantI S_ 1 1#1
  let main_v7 : IVec S_ 1 := (fun x v => Host.reduce IntOp.andi x v reducesTo_S8x32x512_S_d0_1_2 h_S_) main_v6 main_c_1
  let main_v8 : IVec S_ 1 := andi main_v3 main_v7
  let main_v9 : FVec F S8x32 .f32 := Host.absf main_arg3
  let main_cst_2 : FVec F S_ .f32 := constant S_ .f32 0x7F800000#32
  let main_v10 : FVec F S8x32 .f32 := broadcastInDim S8x32 ![] bcast_S_S8x32 main_cst_2
  let main_v11 : IVec S8x32 1 := cmpf .olt main_v9 main_v10
  let main_c_3 : IVec S_ 1 := constantI S_ 1 1#1
  let main_v12 : IVec S_ 1 := (fun x v => Host.reduce IntOp.andi x v reducesTo_S8x32_S_d0_1 h_S_) main_v11 main_c_3
  let main_v13 : IVec S_ 1 := andi main_v8 main_v12
  let main_c_4 : IVec S_ 32 := constantI S_ 32 0#32
  let main_v14 : IVec S262144 32 := broadcastInDim S262144 ![] bcast_S_S262144 main_c_4
  let main_v15 : IVec S262144 1 := cmpi .sge main_arg1 main_v14
  let main_c_5 : IVec S_ 32 := constantI S_ 32 8#32
  fn_part1 (F := F) main_arg1 main_v13 main_v15 main_c_5
-- ==== Kernel.lean ====
abbrev S262144x512 : Shape := ⟨2, ![262144, 512]⟩
abbrev S262144 : Shape := ⟨1, ![262144]⟩
abbrev S8x32x512 : Shape := ⟨3, ![8, 32, 512]⟩
abbrev S8x32 : Shape := ⟨2, ![8, 32]⟩
abbrev S_ : Shape := ⟨0, ![]⟩
abbrev S64x1x4096 : Shape := ⟨3, ![64, 1, 4096]⟩
abbrev S512x8x32 : Shape := ⟨3, ![512, 8, 32]⟩
abbrev S512x256 : Shape := ⟨2, ![512, 256]⟩
abbrev S256 : Shape := ⟨1, ![256]⟩
abbrev S262144x32 : Shape := ⟨2, ![262144, 32]⟩
abbrev S4096x512 : Shape := ⟨2, ![4096, 512]⟩
abbrev S1x1x4096 : Shape := ⟨3, ![1, 1, 4096]⟩
abbrev S4096x32 : Shape := ⟨2, ![4096, 32]⟩
abbrev S4096x256 : Shape := ⟨2, ![4096, 256]⟩
abbrev S1x256 : Shape := ⟨2, ![1, 256]⟩
abbrev S4096x1 : Shape := ⟨2, ![4096, 1]⟩

abbrev nBuf : Space → Nat
  | .hbm => 18
  | .vmem => 8
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S8x32x512, .f32⟩
  | .hbm, ⟨3, _⟩ => ⟨S8x32, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S_, .i32⟩
  | .hbm, ⟨10, _⟩ => ⟨S262144, .i32⟩
  | .hbm, ⟨11, _⟩ => ⟨S262144, .i32⟩
  | .hbm, ⟨12, _⟩ => ⟨S64x1x4096, .i32⟩
  | .hbm, ⟨13, _⟩ => ⟨S512x8x32, .f32⟩
  | .hbm, ⟨14, _⟩ => ⟨S512x256, .f32⟩
  | .hbm, ⟨15, _⟩ => ⟨S512x256, .bf16⟩
  | .hbm, ⟨16, _⟩ => ⟨S256, .f32⟩
  | .hbm, ⟨17, _⟩ => ⟨S262144x32, .f32⟩
  | .local _ .vmem, ⟨0, _⟩ => ⟨S4096x512, .f32⟩
  | .local _ .vmem, ⟨1, _⟩ => ⟨S4096x512, .f32⟩
  | .local _ .vmem, ⟨2, _⟩ => ⟨S1x1x4096, .i32⟩
  | .local _ .vmem, ⟨3, _⟩ => ⟨S1x1x4096, .i32⟩
  | .local _ .vmem, ⟨4, _⟩ => ⟨S512x256, .bf16⟩
  | .local _ .vmem, ⟨5, _⟩ => ⟨S256, .f32⟩
  | .local _ .vmem, ⟨6, _⟩ => ⟨S4096x32, .f32⟩
  | .local _ .vmem, ⟨7, _⟩ => ⟨S4096x32, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S262144 : S_.BroadcastsInDim S262144 (![] : Fin 0 → Fin S262144.rank)
  shapeCasts_S262144_S64x1x4096 : S262144.ShapeCasts S64x1x4096
  transposes_S8x32x512_S512x8x32_2_0_1 : S8x32x512.Transposes [2, 0, 1] S512x8x32
  shapeCasts_S512x8x32_S512x256 : S512x8x32.ShapeCasts S512x256
  bitsLt_bf16_f32 : FTy.bits .bf16 < FTy.bits .f32
  shapeCasts_S8x32_S256 : S8x32.ShapeCasts S256
  inb_S4096x512_S4096x512_0_0 : ∀ a, (![0, 0] : Fin 2 → Nat) a + S4096x512.size a ≤ S4096x512.size a
  h_S4096x512 : 0 < S4096x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S4096x256 : S1x256.Broadcasts S4096x256
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  shapeCasts_S1x1x4096_S4096x1 : S1x1x4096.ShapeCasts S4096x1
  iota_S4096x256_d1_w32 : S4096x256.Iotas .tc 32 [1]
  natLt_1_32 : 1 < 32
  broadcasts_S4096x1_S4096x256 : S4096x1.Broadcasts S4096x256
  slices_S4096x256_o0_0_S4096x32 : S4096x256.Slices ![0, 0] S4096x32
  slices_S4096x256_o0_32_S4096x32 : S4096x256.Slices ![0, 32] S4096x32
  slices_S4096x256_o0_64_S4096x32 : S4096x256.Slices ![0, 64] S4096x32
  slices_S4096x256_o0_96_S4096x32 : S4096x256.Slices ![0, 96] S4096x32
  slices_S4096x256_o0_128_S4096x32 : S4096x256.Slices ![0, 128] S4096x32
  slices_S4096x256_o0_160_S4096x32 : S4096x256.Slices ![0, 160] S4096x32
  slices_S4096x256_o0_192_S4096x32 : S4096x256.Slices ![0, 192] S4096x32
  slices_S4096x256_o0_224_S4096x32 : S4096x256.Slices ![0, 224] S4096x32
  inb_S4096x32_S4096x32_0_0 : ∀ a, (![0, 0] : Fin 2 → Nat) a + S4096x32.size a ≤ S4096x32.size a
  h_S4096x32 : 0 < S4096x32.numel
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S64x1x4096.size a
  hwx0_1 : ∀ i : grid0.Coords, EltTy.bits .i32 = 32 ∨ (Rect.block (s := S64x1x4096) S1x1x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x32.size a ≤ S262144x32.size a
  hwx0_4 : ∀ i : grid0.Coords, EltTy.bits .f32 = 32 ∨ (Rect.block (s := S262144x32) S4096x32.size (cc0_transform_4 i) (hinb0_4 i)).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4096x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x512 : Shape := ⟨2, ![262144, 512]⟩
abbrev S262144 : Shape := ⟨1, ![262144]⟩
abbrev S8x32x512 : Shape := ⟨3, ![8, 32, 512]⟩
abbrev S8x32 : Shape := ⟨2, ![8, 32]⟩
abbrev S262144x8x32 : Shape := ⟨3, ![262144, 8, 32]⟩
abbrev S262144x1x1 : Shape := ⟨3, ![262144, 1, 1]⟩
abbrev S_ : Shape := ⟨0, ![]⟩
abbrev S1 : Shape := ⟨1, ![1]⟩
abbrev S1x1x1 : Shape := ⟨3, ![1, 1, 1]⟩
abbrev S262144x1 : Shape := ⟨2, ![262144, 1]⟩
abbrev S262144x1x32 : Shape := ⟨3, ![262144, 1, 32]⟩
abbrev S262144x32 : Shape := ⟨2, ![262144, 32]⟩

abbrev nBuf : Space → Nat
  | .hbm => 39
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S8x32x512, .f32⟩
  | .hbm, ⟨3, _⟩ => ⟨S8x32, .f32⟩
  | .hbm, ⟨4, _⟩ => ⟨S262144x8x32, .f32⟩
  | .hbm, ⟨5, _⟩ => ⟨S262144x1x1, .i32⟩
  | .hbm, ⟨6, _⟩ => ⟨S_, .i32⟩
  | .hbm, ⟨7, _⟩ => ⟨S262144x1x1, .i32⟩
  | .hbm, ⟨8, _⟩ => ⟨S262144x1x1, .i1⟩
  | .hbm, ⟨9, _⟩ => ⟨S_, .i32⟩
  | .hbm, ⟨10, _⟩ => ⟨S262144x1x1, .i32⟩
  | .hbm, ⟨11, _⟩ => ⟨S262144x1x1, .i32⟩
  | .hbm, ⟨12, _⟩ => ⟨S262144x1x1, .i32⟩
  | .hbm, ⟨13, _⟩ => ⟨S1, .i32⟩
  | .hbm, ⟨14, _⟩ => ⟨S_, .i32⟩
  | .hbm, ⟨15, _⟩ => ⟨S262144x1x1, .i32⟩
  | .hbm, ⟨16, _⟩ => ⟨S262144x1x1, .i1⟩
  | .hbm, ⟨17, _⟩ => ⟨S1x1x1, .i32⟩
  | .hbm, ⟨18, _⟩ => ⟨S262144x1x1, .i32⟩
  | .hbm, ⟨19, _⟩ => ⟨S262144x1x1, .i1⟩
  | .hbm, ⟨20, _⟩ => ⟨S262144x1x1, .i1⟩
  | .hbm, ⟨21, _⟩ => ⟨S_, .i1⟩
  | .hbm, ⟨22, _⟩ => ⟨S262144x1, .i1⟩
  | .hbm, ⟨23, _⟩ => ⟨S262144x1x32, .f32⟩
  | .hbm, ⟨24, _⟩ => ⟨S262144x1x32, .i1⟩
  | .hbm, ⟨25, _⟩ => ⟨S_, .f32⟩
  | .hbm, ⟨26, _⟩ => ⟨S262144x1x32, .f32⟩
  | .hbm, ⟨27, _⟩ => ⟨S262144x1x32, .f32⟩
  | .hbm, ⟨28, _⟩ => ⟨S262144x32, .f32⟩
  | .hbm, ⟨29, _⟩ => ⟨S_, .i32⟩
  | .hbm, ⟨30, _⟩ => ⟨S262144, .i32⟩
  | .hbm, ⟨31, _⟩ => ⟨S262144, .i1⟩
  | .hbm, ⟨32, _⟩ => ⟨S_, .i32⟩
  | .hbm, ⟨33, _⟩ => ⟨S262144, .i32⟩
  | .hbm, ⟨34, _⟩ => ⟨S262144, .i32⟩
  | .hbm, ⟨35, _⟩ => ⟨S262144, .i32⟩
  | .hbm, ⟨36, _⟩ => ⟨S262144x1, .i32⟩
  | .hbm, ⟨37, _⟩ => ⟨S262144x32, .f32⟩
  | .hbm, ⟨38, _⟩ => ⟨S262144x32, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩

abbrev nD : Nat := 1
abbrev τ : Topo := Topo.v7x

variable {F : FTy → Type} [FloatOps F]

class Facts₀ : Prop where
  bcast_S262144_S262144x1x1_0 : S262144.BroadcastsInDim S262144x1x1 (![0] : Fin 1 → Fin S262144x1x1.rank)
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  h_S_ : 0 < S_.numel
  bcast_S262144x1_S262144x1x32_0_1 : S262144x1.BroadcastsInDim S262144x1x32 (![0, 1] : Fin 2 → Fin S262144x1x32.rank)
  bcast_S_S262144x1x32 : S_.BroadcastsInDim S262144x1x32 (![] : Fin 0 → Fin S262144x1x32.rank)
  shapeCasts_S262144x1x32_S262144x32 : S262144x1x32.ShapeCasts S262144x32
  bcast_S_S262144 : S_.BroadcastsInDim S262144 (![] : Fin 0 → Fin S262144.rank)
  bcast_S262144_S262144x1_0 : S262144.BroadcastsInDim S262144x1 (![0] : Fin 1 → Fin S262144x1.rank)
  dot_S262144x512_S8x32x512_S262144x8x32_1_2_0_01_n_n_wf : DotDims.WF S262144x512 S8x32x512 S262144x8x32 [1] [2] [0] [0, 1] [] []
  gather_S262144x8x32_S262144x1x1_S262144x1x32_2_1_0_0_1_2_1132_wf : GatherDims.WF S262144x8x32 S262144x1x1 S262144x1x32 [2] [1] [0] [1] [0] 2 ![1, 1, 32]
  gather_S8x32_S262144x1_S262144x32_1_0_n_n_0_1_132_wf : GatherDims.WF S8x32 S262144x1 S262144x32 [1] [0] [] [0] [] 1 ![1, 32]

variable [Facts₀]

def dot_S262144x512_S8x32x512_S262144x8x32_1_2_0_01_n_n : DotDims S262144x512 S8x32x512 S262144x8x32 where
  lhsContracting := [1]
  rhsContracting := [2]
  lhsNonContracting := [0]
  rhsNonContracting := [0, 1]
  lhsBatch := []
  rhsBatch := []
  wf := dot_S262144x512_S8x32x512_S262144x8x32_1_2_0_01_n_n_wf
def gather_S262144x8x32_S262144x1x1_S262144x1x32_2_1_0_0_1_2_1132 : GatherDims S262144x8x32 S262144x1x1 S262144x1x32 where
  offsetDims := [2]
  collapsedSliceDims := [1]
  operandBatchingDims := [0]
  startIndicesBatchingDims := [0]
  startIndexMap := [1]
  indexVectorDim := 2
  sliceSizes := ![1, 1, 32]
  wf := gather_S262144x8x32_S262144x1x1_S262144x1x32_2_1_0_0_1_2_1132_wf
def gather_S8x32_S262144x1_S262144x32_1_0_n_n_0_1_132 : GatherDims S8x32 S262144x1 S262144x32 where
  offsetDims := [1]
  collapsedSliceDims := [0]
  operandBatchingDims := []
  startIndicesBatchingDims := []
  startIndexMap := [0]
  indexVectorDim := 1
  sliceSizes := ![1, 32]
  wf := gather_S8x32_S262144x1_S262144x32_1_0_n_n_0_1_132_wf

class Facts : Prop extends Facts₀ where

variable [Facts]
-- ==== Proof.Spec.lean ====
/-
  The mathematics both programs are held to: a stacked linear layer.  For each of the 262144 rows `r` an
  index word selects one of eight stacks `s`; the row's output is the product of the input row with that stack's
  32 × 512 weight matrix plus that stack's bias,

      out[r, o] = (Σ_k x[r, k] · w[s, o, k]) + b[s, o],          s = the stack selected by idx[r].

  Everything here is stated on the extended reals and over literal extents.  The stack a word selects is read
  as the word's value modulo eight: the specification is only ever used for words whose value is below eight, where
  that reading is the word's value itself (`stackOf_val`).
-/
import Idealize.ShloMosaic.PureOps.Ideal
import Idealize.ShloMosaic.Lib.ValueIdx

noncomputable section

open scoped BigOperators

namespace Cert.StackedLinear

open Idealize.ShloMosaic Idealize.ShloMosaic.ValueIdx

/-- The stack an index word selects. -/
def stackOf (v : BitVec 32) : Fin 8 := ⟨v.toNat % 8, Nat.mod_lt _ (by decide)⟩

/-- For a word below eight the selected stack is the word's value. -/
theorem stackOf_val (v : BitVec 32) (hv : v.toNat < 8) : (stackOf v).val = v.toNat := Nat.mod_eq_of_lt hv

/-- Entry `(r, o)` of the layer's output: row `r` of the input against output row `o` of the selected stack's
    weight matrix, plus that stack's bias at `o`. -/
def entry (x : FVec Ideal ⟨2, ![262144, 512]⟩ .f32) (idx : IVec ⟨1, ![262144]⟩ 32)
    (w : FVec Ideal ⟨3, ![8, 32, 512]⟩ .f32) (b : FVec Ideal ⟨2, ![8, 32]⟩ .f32) (r : Fin 262144) (o : Fin 32) : EReal :=
  (∑ k : Fin 512, x (ix2 r k) * w (ix3 (stackOf (idx (ix1 r))) o k)) + b (ix2 (stackOf (idx (ix1 r))) o)

/-- The layer's output array, index by index. -/
def out (x : FVec Ideal ⟨2, ![262144, 512]⟩ .f32) (idx : IVec ⟨1, ![262144]⟩ 32)
    (w : FVec Ideal ⟨3, ![8, 32, 512]⟩ .f32) (b : FVec Ideal ⟨2, ![8, 32]⟩ .f32) : FVec Ideal ⟨2, ![262144, 32]⟩ .f32 :=
  fun j => entry x idx w b (j 0) (j 1)

theorem out_ix2 (x : FVec Ideal ⟨2, ![262144, 512]⟩ .f32) (idx : IVec ⟨1, ![262144]⟩ 32)
    (w : FVec Ideal ⟨3, ![8, 32, 512]⟩ .f32) (b : FVec Ideal ⟨2, ![8, 32]⟩ .f32) (r : Fin 262144) (o : Fin 32) :
    out x idx w b (ix2 r o) = entry x idx w b r o := rfl

/-- Every index word of the array is below eight: the domain on which the layer is defined. -/
def InRange (idx : IVec ⟨1, ![262144]⟩ 32) : Prop := ∀ r : Fin 262144, (idx (ix1 r)).toNat < 8

end Cert.StackedLinear

end
-- ==== Proof.MaskedSum.lean ====
/-
  The masked sum over the eight stacks.  The kernel forms, for every row, all eight stacks' results side by side,
  keeps the one whose stack number equals the row's index word and replaces the other seven by zero, and then adds
  the eight up.  On the extended reals `0 + a = a` and `a + 0 = a` for EVERY `a` (infinite ones included), so the
  sum is the kept term: no finiteness is needed.
-/
import proofs.«429537_j74801150427257_3_alg».proof.Proof.Spec

noncomputable section

namespace Cert.StackedLinear

open Idealize.ShloMosaic

/-- Comparing two small numerals as 32-bit words is comparing the numbers. -/
theorem cmpi_eq_ofNat (s n : ℕ) (hs : s < 8) (hn : n < 8) :
    IntOp.cmpi .eq (BitVec.ofNat 32 s) (BitVec.ofNat 32 n) = if s = n then 1#1 else 0#1 := by
  unfold IntOp.cmpi
  by_cases h : s = n
  · subst h; simp
  · rw [if_neg h]
    have hne : BitVec.ofNat 32 s ≠ BitVec.ofNat 32 n := by
      intro e
      have := congrArg BitVec.toNat e
      simp only [BitVec.toNat_ofNat] at this
      omega
    rw [show (BitVec.ofNat 32 s == BitVec.ofNat 32 n) = false from beq_false_of_ne hne]
    rfl

/-- One masked term: the stack's value where the stack number is the index word, zero elsewhere. -/
theorem masked_term (s n : ℕ) (hs : s < 8) (hn : n < 8) (x : EReal) :
    Scalar.select (IntOp.cmpi .eq (BitVec.ofNat 32 s) (BitVec.ofNat 32 n)) x (0 : EReal) = if s = n then x else 0 := by
  rw [cmpi_eq_ofNat s n hs hn]
  by_cases h : s = n
  · rw [if_pos h, if_pos h]; exact if_pos rfl
  · rw [if_neg h, if_neg h]; exact if_neg (by decide)

/-- THE MASKED SUM IS THE SELECTED TERM: of the eight terms, added left to right, only the one of the stack the
    index word names is kept. -/
theorem masked_sum (a : Fin 8 → EReal) (v : BitVec 32) (hv : v.toNat < 8) :
    Scalar.select (IntOp.cmpi .eq (BitVec.ofNat 32 0) v) (a 0) (0 : EReal)
      + Scalar.select (IntOp.cmpi .eq (BitVec.ofNat 32 1) v) (a 1) (0 : EReal)
      + Scalar.select (IntOp.cmpi .eq (BitVec.ofNat 32 2) v) (a 2) (0 : EReal)
      + Scalar.select (IntOp.cmpi .eq (BitVec.ofNat 32 3) v) (a 3) (0 : EReal)
      + Scalar.select (IntOp.cmpi .eq (BitVec.ofNat 32 4) v) (a 4) (0 : EReal)
      + Scalar.select (IntOp.cmpi .eq (BitVec.ofNat 32 5) v) (a 5) (0 : EReal)
      + Scalar.select (IntOp.cmpi .eq (BitVec.ofNat 32 6) v) (a 6) (0 : EReal)
      + Scalar.select (IntOp.cmpi .eq (BitVec.ofNat 32 7) v) (a 7) (0 : EReal)
      = a (stackOf v) := by
  obtain ⟨n, hn, rfl⟩ : ∃ n, n < 8 ∧ v = BitVec.ofNat 32 n := ⟨v.toNat, hv, (BitVec.ofNat_toNat 32 v).symm ▸ by simp⟩
  rw [masked_term 0 n (by omega) hn, masked_term 1 n (by omega) hn, masked_term 2 n (by omega) hn,
    masked_term 3 n (by omega) hn, masked_term 4 n (by omega) hn, masked_term 5 n (by omega) hn,
    masked_term 6 n (by omega) hn, masked_term 7 n (by omega) hn]
  have hst : stackOf (BitVec.ofNat 32 n) = ⟨n, hn⟩ := Fin.ext (by
    show (BitVec.ofNat 32 n).toNat % 8 = n
    rw [BitVec.toNat_ofNat]; omega)
  rw [hst]
  interval_cases n <;> simp

end Cert.StackedLinear

end
-- ==== Proof.Payload.lean ====
/-
  The kernel body at one entry of its block.  For a block of 4096 rows the body computes, side by side in 256 lanes,
  all eight stacks' results: lane `l = 32·s + o` of row `r` holds `Σ_k x[r,k] · W[k,l] + B[l]`, where `W` is the weight
  array laid out as [512, 256] and `B` the bias as [256].  It then compares each lane's stack number `l / 32`
  (computed on 32-bit words as a truncated quotient with a floor correction) with the row's index word, keeps the
  lanes where they agree, zeroes the others, and adds the eight 32-lane groups.  What is left at `(r, o)` is the
  result of the stack the row's index word names.
-/
import proofs.«429537_j74801150427257_3_alg».proof.Proof.Gen.KernelIdeal.Value
import proofs.«429537_j74801150427257_3_alg».proof.Proof.MaskedSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.StackedLinear

/-! ## A lane's stack number, as the body's word operations compute it -/

/-- The floor of a 32-bit word by 32 as the body spells it: the truncated quotient, lowered by one when the signs
    of the operands differ and the remainder is not zero. -/
def laneStackWord (n : BitVec 32) : BitVec 32 :=
  Scalar.select
    (IntOp.andi
      (IntOp.cmpi .ne
        (IntOp.subi ((IntOp.cmpi .sgt n 0#32).setWidth 32) ((IntOp.cmpi .slt n 0#32).setWidth 32))
        (Scalar.subi (Scalar.extui (Scalar.cmpi .sgt 32#32 0#32)) (Scalar.extui (Scalar.cmpi .slt 32#32 0#32))))
      (IntOp.cmpi .ne (IntOp.remsi .vector n 32#32) 0#32))
    (IntOp.subi (IntOp.divsi .vector n 32#32) 1#32)
    (IntOp.divsi .vector n 32#32)

/-- On the 256 lanes it is the lane number divided by 32. -/
theorem laneStackWord_lane : ∀ l : Fin 256, laneStackWord (BitVec.ofNat 32 l.val) = BitVec.ofNat 32 (l.val / 32) := by
  decide +kernel

/-! ## The matrix product at an entry -/

theorem lhs_axis0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
theorem lhs_axis1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q
theorem rhs_axis0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q
theorem rhs_axis1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl

/-- The product of a [4096, 512] block with the [512, 256] weights, accumulated into zero, at entry `(r, l)`: the
    sum over the 512 contracted positions. -/
theorem matmul_entry (A : FVec Ideal S4096x512 .bf16) (W : FVec Ideal S512x256 .bf16) (r : Fin 4096) (l : Fin 256) :
    matmul dot_S4096x512_S512x256_S4096x256_1_0_0_1_n_n none A W (constant S4096x256 .f32 0x00000000#32) (ix2 r l)
      = ∑ k : Fin 512, A (ix2 r k) * W (ix2 k l) := by
  simp only [matmul]
  rw [Ideal.matmul_constant_zero_apply, ← Equiv.sum_comp (ValueIdx.contrEquiv1 dot_S4096x512_S512x256_S4096x256_1_0_0_1_n_n 512 rfl rfl).symm]
  refine Finset.sum_congr rfl fun k _ => ?_
  have hk := ValueIdx.contrEquiv1_symm_val dot_S4096x512_S512x256_S4096x256_1_0_0_1_n_n 512 rfl rfl k
  have el : dot_S4096x512_S512x256_S4096x256_1_0_0_1_n_n.lhsIdx (ix2 r l) ((ValueIdx.contrEquiv1 dot_S4096x512_S512x256_S4096x256_1_0_0_1_n_n 512 rfl rfl).symm k) = ix2 r k := funext fun a => Fin.ext (by
    match a with
    | ⟨0, _⟩ => exact lhs_axis0 _ _
    | ⟨1, _⟩ => exact (lhs_axis1 _ _).trans hk)
  have er : dot_S4096x512_S512x256_S4096x256_1_0_0_1_n_n.rhsIdx (ix2 r l) ((ValueIdx.contrEquiv1 dot_S4096x512_S512x256_S4096x256_1_0_0_1_n_n 512 rfl rfl).symm k) = ix2 k l := funext fun a => Fin.ext (by
    match a with
    | ⟨0, _⟩ => exact (rhs_axis0 _ _).trans hk
    | ⟨1, _⟩ => exact rhs_axis1 _ _)
  rw [el, er]

/-! ## The layout operations at an entry -/

/-- The bias row, cast [256] → [1, 256] and broadcast down the 4096 rows, at `(r, l)` is the bias at `l`. -/
theorem bias_entry (B : FVec Ideal S256 .f32) (r : Fin 4096) (l : Fin 256) :
    broadcastTo S4096x256 (shapeCast S1x256 (shapeCast S256 B shapeCasts_S256_S256) shapeCasts_S256_S1x256) broadcasts_S1x256_S4096x256 (ix2 r l)
      = B (ix1 l) := by
  rw [shapeCast_self]
  refine (broadcastTo_apply _ broadcasts_S1x256_S4096x256 (ix2 r l) (ix2 (0 : Fin 1) l) (fun a => by
    match a with
    | ⟨0, _⟩ => rfl
    | ⟨1, _⟩ => rfl)).trans ?_
  refine shapeCast_apply B shapeCasts_S256_S1x256 (ix2 (0 : Fin 1) l) (ix1 l) ?_
  rw [Shape.rowMajor_val_one, Shape.rowMajor_val_two]
  show l.val = 0 * 256 + l.val
  omega

/-- The index words, cast [1, 1, 4096] → [4096, 1] and broadcast along the 256 lanes, at `(r, l)` are row `r`'s word. -/
theorem idx_entry (I : IVec S1x1x4096 32) (r : Fin 4096) (l : Fin 256) :
    broadcastTo S4096x256 (shapeCast S4096x1 (shapeCast S1x1x4096 I shapeCasts_S1x1x4096_S1x1x4096) shapeCasts_S1x1x4096_S4096x1) broadcasts_S4096x1_S4096x256 (ix2 r l)
      = I (ix3 (0 : Fin 1) (0 : Fin 1) r) := by
  rw [shapeCast_self]
  refine (broadcastTo_apply _ broadcasts_S4096x1_S4096x256 (ix2 r l) (ix2 r (0 : Fin 1)) (fun a => by
    match a with
    | ⟨0, _⟩ => rfl
    | ⟨1, _⟩ => rfl)).trans ?_
  refine shapeCast_apply I shapeCasts_S1x1x4096_S4096x1 (ix2 r (0 : Fin 1)) (ix3 (0 : Fin 1) (0 : Fin 1) r) ?_
  rw [Shape.rowMajor_val_two, Shape.rowMajor_val_three]
  show (0 * 1 + 0) * 4096 + r.val = r.val * 1 + 0
  omega

/-- The lane counter at `(r, l)` is `l`. -/
theorem lane_entry (r : Fin 4096) (l : Fin 256) :
    iota .tc S4096x256 32 [1] iota_S4096x256_d1_w32 (ix2 r l) = BitVec.ofNat 32 l.val := by
  show BitVec.ofNat 32 (0 * 256 + l.val) = _
  rw [Nat.zero_mul, Nat.zero_add]

/-! ## The masked lanes -/

/-- THE BODY'S 256-LANE VALUE at `(r, l)`: the lane's full result where the lane's stack number is row `r`'s index
    word, zero elsewhere. -/
theorem lanes_entry (X : Vec Ideal S4096x512 .f32) (W : Vec Ideal S512x256 .bf16) (B : Vec Ideal S256 .f32) (I : Vec Ideal S1x1x4096 .i32)
    (r : Fin 4096) (l : Fin 256) :
    k0_pay2 (F := Ideal) X W B I (ix2 r l)
      = Scalar.select (IntOp.cmpi .eq (BitVec.ofNat 32 (l.val / 32)) (I (ix3 (0 : Fin 1) (0 : Fin 1) r)))
          ((∑ k : Fin 512, X (ix2 r k) * W (ix2 k l)) + B (ix1 l)) (0 : EReal) := by
  unfold k0_pay2
  show Scalar.select (IntOp.cmpi .eq
        (laneStackWord (iota .tc S4096x256 32 [1] iota_S4096x256_d1_w32 (ix2 r l)))
        (broadcastTo S4096x256 (shapeCast S4096x1 (shapeCast S1x1x4096 I shapeCasts_S1x1x4096_S1x1x4096) shapeCasts_S1x1x4096_S4096x1) broadcasts_S4096x1_S4096x256 (ix2 r l)))
      (matmul (F := Ideal) dot_S4096x512_S512x256_S4096x256_1_0_0_1_n_n none (truncf (F := Ideal) .bf16 X bitsLt_bf16_f32) (shapeCast S512x256 W shapeCasts_S512x256_S512x256) (constant (F := Ideal) S4096x256 .f32 0x00000000#32) (ix2 r l)
        + broadcastTo S4096x256 (shapeCast S1x256 (shapeCast S256 B shapeCasts_S256_S256) shapeCasts_S256_S1x256) broadcasts_S1x256_S4096x256 (ix2 r l))
      (Ideal.ofBits .f32 0x00000000#32) = _
  rw [lane_entry, laneStackWord_lane, idx_entry, bias_entry, shapeCast_self, matmul_entry, Ideal.ofBits_zero_f32]
  rfl

/-! ## The block the body leaves, at an entry -/

/-- Lane `32·s + o`: output position `o` of stack `s`. -/
abbrev lane (s : Fin 8) (o : Fin 32) : Fin 256 := ⟨s.val * 32 + o.val, by have := s.isLt; have := o.isLt; omega⟩

theorem lane_div (s : Fin 8) (o : Fin 32) : (lane s o).val / 32 = s.val := by
  show (s.val * 32 + o.val) / 32 = s.val
  have := o.isLt; omega

/-- THE BLOCK AT `(r, o)`: the eight 32-lane groups of the masked lanes added up leave the result of the one stack the
    row's index word names (for an index word below eight). -/
theorem block_entry (X : Vec Ideal S4096x512 .f32) (W : Vec Ideal S512x256 .bf16) (B : Vec Ideal S256 .f32) (I : Vec Ideal S1x1x4096 .i32)
    (r : Fin 4096) (o : Fin 32) (hv : (I (ix3 (0 : Fin 1) (0 : Fin 1) r)).toNat < 8) :
    Cert.KernelIdeal.Value.E4 (F := Ideal) X W B I (ix2 r o)
      = (∑ k : Fin 512, X (ix2 r k) * W (ix2 k (lane (stackOf (I (ix3 (0 : Fin 1) (0 : Fin 1) r))) o)))
          + B (ix1 (lane (stackOf (I (ix3 (0 : Fin 1) (0 : Fin 1) r))) o)) := by
  have i0 : Cert.KernelIdeal.Value.ix4_0 (ix2 r o) = ix2 r (lane 0 o) := funext fun a => Fin.ext (by
    match a with | ⟨0, _⟩ => rfl | ⟨1, _⟩ => show o.val = 0 * 32 + o.val; omega)
  have i1 : Cert.KernelIdeal.Value.ix4_1 (ix2 r o) = ix2 r (lane 1 o) := funext fun a => Fin.ext (by
    match a with | ⟨0, _⟩ => rfl | ⟨1, _⟩ => show o.val + 32 = 1 * 32 + o.val; omega)
  have i2 : Cert.KernelIdeal.Value.ix4_2 (ix2 r o) = ix2 r (lane 2 o) := funext fun a => Fin.ext (by
    match a with | ⟨0, _⟩ => rfl | ⟨1, _⟩ => show o.val + 64 = 2 * 32 + o.val; omega)
  have i3 : Cert.KernelIdeal.Value.ix4_3 (ix2 r o) = ix2 r (lane 3 o) := funext fun a => Fin.ext (by
    match a with | ⟨0, _⟩ => rfl | ⟨1, _⟩ => show o.val + 96 = 3 * 32 + o.val; omega)
  have i4 : Cert.KernelIdeal.Value.ix4_4 (ix2 r o) = ix2 r (lane 4 o) := funext fun a => Fin.ext (by
    match a with | ⟨0, _⟩ => rfl | ⟨1, _⟩ => show o.val + 128 = 4 * 32 + o.val; omega)
  have i5 : Cert.KernelIdeal.Value.ix4_5 (ix2 r o) = ix2 r (lane 5 o) := funext fun a => Fin.ext (by
    match a with | ⟨0, _⟩ => rfl | ⟨1, _⟩ => show o.val + 160 = 5 * 32 + o.val; omega)
  have i6 : Cert.KernelIdeal.Value.ix4_6 (ix2 r o) = ix2 r (lane 6 o) := funext fun a => Fin.ext (by
    match a with | ⟨0, _⟩ => rfl | ⟨1, _⟩ => show o.val + 192 = 6 * 32 + o.val; omega)
  have i7 : Cert.KernelIdeal.Value.ix4_7 (ix2 r o) = ix2 r (lane 7 o) := funext fun a => Fin.ext (by
    match a with | ⟨0, _⟩ => rfl | ⟨1, _⟩ => show o.val + 224 = 7 * 32 + o.val; omega)
  show k0_pay2 (F := Ideal) X W B I (Cert.KernelIdeal.Value.ix4_0 (ix2 r o))
      + k0_pay2 (F := Ideal) X W B I (Cert.KernelIdeal.Value.ix4_1 (ix2 r o))
      + k0_pay2 (F := Ideal) X W B I (Cert.KernelIdeal.Value.ix4_2 (ix2 r o))
      + k0_pay2 (F := Ideal) X W B I (Cert.KernelIdeal.Value.ix4_3 (ix2 r o))
      + k0_pay2 (F := Ideal) X W B I (Cert.KernelIdeal.Value.ix4_4 (ix2 r o))
      + k0_pay2 (F := Ideal) X W B I (Cert.KernelIdeal.Value.ix4_5 (ix2 r o))
      + k0_pay2 (F := Ideal) X W B I (Cert.KernelIdeal.Value.ix4_6 (ix2 r o))
      + k0_pay2 (F := Ideal) X W B I (Cert.KernelIdeal.Value.ix4_7 (ix2 r o)) = _
  rw [i0, i1, i2, i3, i4, i5, i6, i7,
    lanes_entry X W B I r (lane 0 o), lanes_entry X W B I r (lane 1 o), lanes_entry X W B I r (lane 2 o),
    lanes_entry X W B I r (lane 3 o), lanes_entry X W B I r (lane 4 o), lanes_entry X W B I r (lane 5 o),
    lanes_entry X W B I r (lane 6 o), lanes_entry X W B I r (lane 7 o),
    lane_div 0 o, lane_div 1 o, lane_div 2 o, lane_div 3 o, lane_div 4 o, lane_div 5 o, lane_div 6 o, lane_div 7 o]
  exact masked_sum (fun s => (∑ k : Fin 512, X (ix2 r k) * W (ix2 k (lane s o))) + B (ix1 (lane s o)))
    (I (ix3 (0 : Fin 1) (0 : Fin 1) r)) hv

end Cert.KernelIdeal.Payload

end
-- ==== Proof.Windows.lean ====
/-
  The arrays the kernel is launched on.  Before its one region the program clamps the index words into [0, 7] and
  lays them out as 64 × 1 × 4096, moves the weights' contraction axis to the front and flattens the stack and
  output-row axes into one of 256 columns (the conversion to the narrower float type is the identity on the
  extended reals), and flattens the bias to 256 entries.  Each of the three arrays is read here at an index, as an
  entry of the launch arrays: a word already below eight is its own clamp, and a reshape keeps the row-major position.
-/
import proofs.«429537_j74801150427257_3_alg».proof.Proof.Gen.KernelIdeal.Frame
import proofs.«429537_j74801150427257_3_alg».proof.Proof.Spec
import Idealize.ShloMosaic.Lib.Pipeline.Value
import Idealize.ShloMosaic.Lib.StableHlo.Predicate

noncomputable section

namespace Cert.KernelIdeal.Windows

open Cert.KernelIdeal Cert.KernelIdeal.Gen Idealize.ShloMosaic Idealize.ShloMosaic.ValueIdx Idealize.ShloMosaic.TcCoe

/-! ## Words -/

/-- A word whose value is below eight is its own clamp to [0, 7]: it is not below 0 and 7 is not below it. -/
theorem clamp_word (v : BitVec 32) (hv : v.toNat < 8) : IntOp.minsi 7#32 (IntOp.maxsi 0#32 v) = v := by
  have hti : v.toInt = v.toNat := by
    rw [BitVec.toInt_eq_toNat_cond]
    split <;> omega
  have h0 : (0#32 : BitVec 32).toInt = 0 := by decide
  have h7 : (7#32 : BitVec 32).toInt = 7 := by decide
  have hmax : IntOp.maxsi 0#32 v = v := by
    unfold IntOp.maxsi
    rw [if_neg]
    rw [BitVec.slt_iff_toInt_lt, hti, h0]
    omega
  rw [hmax]
  unfold IntOp.minsi
  rw [if_neg]
  rw [BitVec.slt_iff_toInt_lt, hti, h7]
  omega

/-! ## The three layouts read at an index, over variables of the literal array types -/

/-- The clamp of an array of words against the broadcast scalars 0 and 7, at an index whose word is below eight. -/
theorem clamp_apply (x : IVec S262144 32) (h : S_.BroadcastsInDim S262144 (![] : Fin 0 → Fin S262144.rank)) (j : S262144.Idx)
    (hj : (x j).toNat < 8) :
    minsi (broadcastInDim S262144 ![] h (constantI S_ 32 7#32)) (maxsi (broadcastInDim S262144 ![] h (constantI S_ 32 0#32)) x) j = x j := by
  show IntOp.minsi (broadcastInDim S262144 ![] h (constantI S_ 32 7#32) j)
      (IntOp.maxsi (broadcastInDim S262144 ![] h (constantI S_ 32 0#32) j) (x j)) = x j
  rw [StableHlo.Predicate.bcast_scalar h (by decide), StableHlo.Predicate.bcast_scalar h (by decide)]
  exact clamp_word _ hj

/-- Entry `(t, 0, q)` of the 64 × 1 × 4096 layout of a 262144-vector is entry `t · 4096 + q`. -/
theorem reshape_idx_apply (x : IVec S262144 32) (h : S262144.ShapeCasts S64x1x4096) (t : Fin 64) (q : Fin 4096) (r : Fin 262144)
    (hr : r.val = t.val * 4096 + q.val) :
    shapeCast S64x1x4096 x h (ix3 t (0 : Fin 1) q) = x (ix1 r) :=
  shapeCast_apply x h _ _ (by
    rw [Shape.rowMajor_val_one, Shape.rowMajor_val_three]
    show r.val = (t.val * 1 + 0) * 4096 + q.val
    omega)

/-- Entry `(k, s · 32 + o)` of the 512 × 256 layout of the weights with the contraction axis moved to the front is
    entry `(s, o, k)` of the weights. -/
theorem weights_apply (x : FVec Ideal S8x32x512 .f32) (ht : S8x32x512.Transposes [2, 0, 1] S512x8x32)
    (hc : S512x8x32.ShapeCasts S512x256) (k : Fin 512) (s : Fin 8) (o : Fin 32) (p : Fin 256) (hp : p.val = s.val * 32 + o.val) :
    shapeCast S512x256 (transpose S512x8x32 [2, 0, 1] x ht) hc (ix2 k p) = x (ix3 s o k) := by
  rw [shapeCast_apply _ hc (ix2 k p) (ix3 k s o) (by
    rw [Shape.rowMajor_val_three, Shape.rowMajor_val_two]
    show (k.val * 8 + s.val) * 32 + o.val = k.val * 256 + p.val
    omega)]
  exact transpose_apply _ x ht (ix3 k s o) (ix3 s o k) fun b =>
    match b with | ⟨0, _⟩ => rfl | ⟨1, _⟩ => rfl | ⟨2, _⟩ => rfl

/-- Entry `s · 32 + o` of the flattened bias is entry `(s, o)`. -/
theorem bias_apply (x : FVec Ideal S8x32 .f32) (h : S8x32.ShapeCasts S256) (s : Fin 8) (o : Fin 32) (p : Fin 256)
    (hp : p.val = s.val * 32 + o.val) :
    shapeCast S256 x h (ix1 p) = x (ix2 s o) :=
  shapeCast_apply x h _ _ (by
    rw [Shape.rowMajor_val_two, Shape.rowMajor_val_one]
    show s.val * 32 + o.val = p.val
    omega)

/-! ## The arrays when the region is entered -/

variable (m : (ℓ : Loc nD τ sig) → Buf (Elt Ideal) ℓ)

/-- The index array the region finds: the launch words clamped, then laid out as 64 × 1 × 4096. -/
theorem V_idx_eq (c : Dev nD) :
    (V m c main_v1 : S64x1x4096.Idx → BitVec 32) =
      shapeCast S64x1x4096
        (minsi (broadcastInDim S262144 ![] bcast_S_S262144 (constantI S_ 32 7#32))
          (maxsi (broadcastInDim S262144 ![] bcast_S_S262144 (constantI S_ 32 0#32))
            (m ((c : Thread nD τ).loc main_arg1) : IVec S262144 32)))
        shapeCasts_S262144_S64x1x4096 := by
  dsimp only [V]
  simp only [hostOps0, hostOps0_1, hostOps0_2, List.flatten_cons, List.flatten_nil, List.append_nil, List.cons_append,
    List.nil_append]
  after_results
  rfl

/-- The weight array the region finds: the launch weights with the contraction axis first, flattened to 512 × 256. -/
theorem V_w_eq (c : Dev nD) :
    (V m c main_v4 : S512x256.Idx → EReal) =
      truncf .bf16
        (shapeCast S512x256
          (transpose S512x8x32 [2, 0, 1] (m ((c : Thread nD τ).loc main_arg2) : FVec Ideal S8x32x512 .f32)
            transposes_S8x32x512_S512x8x32_2_0_1)
          shapeCasts_S512x8x32_S512x256 : FVec Ideal S512x256 .f32)
        bitsLt_bf16_f32 := by
  dsimp only [V]
  simp only [hostOps0, hostOps0_1, hostOps0_2, List.flatten_cons, List.flatten_nil, List.append_nil, List.cons_append,
    List.nil_append]
  after_results
  rfl

/-- The bias array the region finds: the launch bias flattened. -/
theorem V_b_eq (c : Dev nD) :
    (V m c main_v5 : S256.Idx → EReal) =
      shapeCast S256 (m ((c : Thread nD τ).loc main_arg3) : FVec Ideal S8x32 .f32) shapeCasts_S8x32_S256 := by
  dsimp only [V]
  simp only [hostOps0, hostOps0_1, hostOps0_2, List.flatten_cons, List.flatten_nil, List.append_nil, List.cons_append,
    List.nil_append]
  after_results
  rfl

/-- Where the launch word of row `t · 4096 + q` is below eight, the region finds that word at `(t, 0, q)`. -/
theorem V_idx (c : Dev nD) (t : Fin 64) (q : Fin 4096)
    (hr : ((m ((c : Thread nD τ).loc main_arg1) : IVec S262144 32)
      (ix1 ⟨t.val * 4096 + q.val, by have := t.isLt; have := q.isLt; omega⟩)).toNat < 8) :
    (V m c main_v1 : IVec S64x1x4096 32) (ix3 t (0 : Fin 1) q)
      = (m ((c : Thread nD τ).loc main_arg1) : IVec S262144 32)
          (ix1 ⟨t.val * 4096 + q.val, by have := t.isLt; have := q.isLt; omega⟩) := by
  have e := congrFun (V_idx_eq m c) (ix3 t (0 : Fin 1) q)
  refine e.trans ?_
  rw [reshape_idx_apply _ shapeCasts_S262144_S64x1x4096 t q ⟨t.val * 4096 + q.val, by have := t.isLt; have := q.isLt; omega⟩ rfl]
  exact clamp_apply _ bcast_S_S262144 _ hr

/-- The region finds the weight `(s, o, k)` at row `k`, column `s · 32 + o`. -/
theorem V_w (c : Dev nD) (k : Fin 512) (s : Fin 8) (o : Fin 32) :
    (V m c main_v4 : FVec Ideal S512x256 .bf16) (ix2 k ⟨s.val * 32 + o.val, by have := s.isLt; have := o.isLt; omega⟩)
      = (m ((c : Thread nD τ).loc main_arg2) : FVec Ideal S8x32x512 .f32) (ix3 s o k) := by
  have e := congrFun (V_w_eq m c) (ix2 k ⟨s.val * 32 + o.val, by have := s.isLt; have := o.isLt; omega⟩)
  refine e.trans ?_
  rw [truncf_apply]
  exact weights_apply _ transposes_S8x32x512_S512x8x32_2_0_1 shapeCasts_S512x8x32_S512x256 k s o _ rfl

/-- The region finds the bias `(s, o)` at entry `s · 32 + o`. -/
theorem V_b (c : Dev nD) (s : Fin 8) (o : Fin 32) :
    (V m c main_v5 : FVec Ideal S256 .f32) (ix1 ⟨s.val * 32 + o.val, by have := s.isLt; have := o.isLt; omega⟩)
      = (m ((c : Thread nD τ).loc main_arg3) : FVec Ideal S8x32 .f32) (ix2 s o) := by
  have e := congrFun (V_b_eq m c) (ix1 ⟨s.val * 32 + o.val, by have := s.isLt; have := o.isLt; omega⟩)
  refine e.trans ?_
  exact bias_apply _ shapeCasts_S8x32_S256 s o _ rfl

end Cert.KernelIdeal.Windows

end
-- ==== Proof.KernelValue.lean ====
/-
  From blocks to the array.  The pallas_call runs the body at 64 grid points; point `t` is handed rows
  `4096·t … 4096·t + 4095` of the input and of the (clamped) index words, the whole [512, 256] weight layout and the
  whole [256] bias layout, and writes back rows `4096·t …` of the output.  Row `4096·t + r` of the output is therefore
  the body's block entry `(r, o)` read on those rows: with the weight layout `W[k, 32·s + o] = w[s, o, k]`, the bias layout
  `B[32·s + o] = b[s, o]` and an index word below eight left unchanged by the clamp, that is the layer's entry
  `Σ_k x[row, k] · w[s, o, k] + b[s, o]` with `s` the stack the row's word names.  The 64 blocks tile the output array.
-/
import proofs.«429537_j74801150427257_3_alg».proof.Proof.Payload
import proofs.«429537_j74801150427257_3_alg».proof.Proof.Windows

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Cert.StackedLinear
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The layer's output over the arrays core `c` is launched with. -/
abbrev layerOut (c : Dev nD) : FVec Ideal S262144x32 .f32 :=
  out (m ((c : Thread nD τ).loc main_arg0)) (m ((c : Thread nD τ).loc main_arg1)) (m ((c : Thread nD τ).loc main_arg2))
    (m ((c : Thread nD τ).loc main_arg3))

/-! ## The body's block at an entry, over any operands -/

/-- What the body leaves in its output block at `(r, o)`, for any operand blocks whose row-`r` index word is below
    eight: the selected stack's lane of the product plus the bias lane. -/
theorem body_entry (X : Vec Ideal S4096x512 .f32) (I : Vec Ideal S1x1x4096 .i32) (W : Vec Ideal S512x256 .bf16) (B : Vec Ideal S256 .f32)
    (r : Fin 4096) (o : Fin 32) (hv : (I (ix3 (0 : Fin 1) (0 : Fin 1) r)).toNat < 8) :
    out0_4 (F := Ideal) X I W B (ix2 r o)
      = (∑ k : Fin 512, X (ix2 r k) * W (ix2 k (Payload.lane (stackOf (I (ix3 (0 : Fin 1) (0 : Fin 1) r))) o)))
          + B (ix1 (Payload.lane (stackOf (I (ix3 (0 : Fin 1) (0 : Fin 1) r))) o)) := by
  unfold out0_4
  rw [Cert.KernelIdeal.Value.canon4_eq]
  simp only [View.ld_unit_zero (S := S4096x512) hz2, View.ld_unit_zero (S := S512x256) hz2,
    View.ld_unit_zero (S := S256) hz1, View.ld_unit_zero (S := S1x1x4096) hz3]
  exact Payload.block_entry X W B I r o hv

/-! ## The windows' blocks at a grid point -/

/-- The printed index maps over the 64 grid points: the input rows, the index words and the output rows move with the
    point; the weight and bias layouts are whole at every point. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

theorem point_lt (t : Fin cfg0.N) : t.val < 64 := lt_of_lt_of_eq t.isLt N_0

/-- Array row `4096·t + r`. -/
abbrev row (t : Fin cfg0.N) (r : Fin 4096) : Fin 262144 :=
  ⟨t.val * 4096 + r.val, by have := point_lt t; have := r.isLt; omega⟩

/-- The input block at point `t`: rows `4096·t …` of the input array. -/
theorem blkX (c : Dev nD) (t : Fin cfg0.N) (r : Fin 4096) (k : Fin 512) :
    (iblk m c 0 t : Vec Ideal S4096x512 .f32) (ix2 r k) = (m ((c : Thread nD τ).loc main_arg0) : FVec Ideal S262144x512 .f32) (ix2 (row t r) k) := by
  obtain ⟨e0, e1, -⟩ := idx_facts t
  refine Eq.trans ?_ (congrFun (V_main_arg0 m c) _)
  show V m c main_arg0 (((cfg0.win 0).blk t).view.emb (ix2 r k)) = V m c main_arg0 _
  refine congrArg _ (funext fun a => Fin.ext ?_)
  match a with
  | ⟨0, _⟩ => show win0_0.index t (0 : Fin 2) * 4096 + 1 * r.val = t.val * 4096 + r.val; omega
  | ⟨1, _⟩ => show win0_0.index t (1 : Fin 2) * 512 + 1 * k.val = k.val; omega

/-- The index-word block at point `t`: entry `[t, 0, r]` of the staged [64, 1, 4096] words. -/
theorem blkI (c : Dev nD) (t : Fin cfg0.N) (r : Fin 4096) :
    (iblk m c 1 t : Vec Ideal S1x1x4096 .i32) (ix3 (0 : Fin 1) (0 : Fin 1) r)
      = (V m c main_v1 : IVec S64x1x4096 32) (ix3 (⟨t.val, point_lt t⟩ : Fin 64) (0 : Fin 1) r) := by
  obtain ⟨-, -, e0, e1, e2, -⟩ := idx_facts t
  show V m c main_v1 (((cfg0.win 1).blk t).view.emb (ix3 (0 : Fin 1) (0 : Fin 1) r)) = V m c main_v1 _
  refine congrArg _ (funext fun a => Fin.ext ?_)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 4096 + 1 * r.val = r.val; omega

/-- The weight block at every point is the whole staged [512, 256] layout. -/
theorem blkW (c : Dev nD) (t : Fin cfg0.N) (k : Fin 512) (l : Fin 256) :
    (iblk m c 2 t : Vec Ideal S512x256 .bf16) (ix2 k l) = (V m c main_v4 : FVec Ideal S512x256 .bf16) (ix2 k l) := by
  obtain ⟨-, -, -, -, -, e0, e1, -⟩ := idx_facts t
  show V m c main_v4 (((cfg0.win 2).blk t).view.emb (ix2 k l)) = V m c main_v4 _
  refine congrArg _ (funext fun a => Fin.ext ?_)
  match a with
  | ⟨0, _⟩ => show win0_2.index t (0 : Fin 2) * 512 + 1 * k.val = k.val; omega
  | ⟨1, _⟩ => show win0_2.index t (1 : Fin 2) * 256 + 1 * l.val = l.val; omega

/-- The bias block at every point is the whole staged [256] layout. -/
theorem blkB (c : Dev nD) (t : Fin cfg0.N) (l : Fin 256) :
    (iblk m c 3 t : Vec Ideal S256 .f32) (ix1 l) = (V m c main_v5 : FVec Ideal S256 .f32) (ix1 l) := by
  obtain ⟨-, -, -, -, -, -, -, e0, -⟩ := idx_facts t
  show V m c main_v5 (((cfg0.win 3).blk t).view.emb (ix1 l)) = V m c main_v5 _
  refine congrArg _ (funext fun a => Fin.ext ?_)
  match a with
  | ⟨0, _⟩ => show win0_3.index t (0 : Fin 1) * 256 + 1 * l.val = l.val; omega

/-! ## What a point writes back -/

/-- WHAT POINT `t` WRITES BACK is block `t` of the layer's output over the launch arrays, when every index word is
    below eight. -/
theorem flushed_eq (hin : ∀ c : Dev nD, InRange (m ((c : Thread nD τ).loc main_arg1))) (c : Dev nD) (t : Fin cfg0.N) :
    (dats m 0 c).flushed 4 t = ((cfg0.win 4).blk t).view.read (Elt Ideal) (layerOut m c) := by
  rw [Cert.KernelIdeal.Value.flushed4]
  funext j
  obtain ⟨r, o, rfl⟩ : ∃ (r : Fin 4096) (o : Fin 32), j = ix2 r o := ⟨j 0, j 1, eq_ix2 j⟩
  obtain ⟨-, -, -, -, -, -, -, -, e0, e1⟩ := idx_facts t
  have hrow : ((cfg0.win 4).blk t).view.emb (ix2 r o) = ix2 (row t r) o := funext fun a => Fin.ext (by
    match a with
    | ⟨0, _⟩ => show win0_4.index t (0 : Fin 2) * 4096 + 1 * r.val = t.val * 4096 + r.val; omega
    | ⟨1, _⟩ => show win0_4.index t (1 : Fin 2) * 32 + 1 * o.val = o.val; omega)
  show out0_4 (F := Ideal) (iblk m c 0 t) (iblk m c 1 t) (iblk m c 2 t) (iblk m c 3 t) (ix2 r o)
    = layerOut m c (((cfg0.win 4).blk t).view.emb (ix2 r o))
  rw [hrow]
  have hw : ((m ((c : Thread nD τ).loc main_arg1) : IVec S262144 32) (ix1 (row t r))).toNat < 8 := hin c (row t r)
  have hI : (iblk m c 1 t : Vec Ideal S1x1x4096 .i32) (ix3 (0 : Fin 1) (0 : Fin 1) r)
      = (m ((c : Thread nD τ).loc main_arg1) : IVec S262144 32) (ix1 (row t r)) :=
    (blkI m c t r).trans (Windows.V_idx m c ⟨t.val, point_lt t⟩ r hw)
  refine (body_entry (iblk m c 0 t) (iblk m c 1 t) (iblk m c 2 t) (iblk m c 3 t) r o (by rw [hI]; exact hw)).trans ?_
  rw [hI]
  show _ = entry (m ((c : Thread nD τ).loc main_arg0)) (m ((c : Thread nD τ).loc main_arg1)) (m ((c : Thread nD τ).loc main_arg2))
    (m ((c : Thread nD τ).loc main_arg3)) (row t r) o
  unfold entry
  congr 1
  · refine Finset.sum_congr rfl fun k _ => ?_
    rw [blkX m c t r k, blkW m c t k _, Windows.V_w m c k _ o]
  · rw [blkB m c t _, Windows.V_b m c _ o]

/-! ## The cover, the array and the run -/

/-- An index of the output array is in point `t`'s block iff each coordinate is in the block's range on its axis. -/
theorem mem_blk (t : Fin cfg0.N) (i : S262144x32.Idx) :
    i ∈ ((cfg0.win 4).blk t).view.set ↔ ∀ a : Fin 2, win0_4.index t a * S4096x32.size a ≤ (i a).val ∧ (i a).val < win0_4.index t a * S4096x32.size a + S4096x32.size a := by
  show i ∈ ((View.whole main_v6).slice (win0_4.rect t)).set ↔ _
  rw [View.set_slice_whole, Rect.mem_set_unit]
  exact Iff.rfl

/-- Every index of the output array is in the block of the point its row falls to. -/
theorem cover (i : S262144x32.Idx) : ∃ t : Fin cfg0.N, (cfg0.win 4).flush t = true ∧ i ∈ ((cfg0.win 4).blk t).view.set := by
  have hi0 : (i 0).val < 262144 := (i 0).isLt
  have hi1 : (i 1).val < 32 := (i 1).isLt
  let t : Fin cfg0.N := ⟨(i 0).val / 4096, by rw [show cfg0.N = 64 from N_0]; omega⟩
  obtain ⟨-, -, -, -, -, -, -, -, e0, e1⟩ := idx_facts t
  have ht : t.val = (i 0).val / 4096 := rfl
  refine ⟨t, flush0_4 t, ?_⟩
  rw [mem_blk]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 32 ≤ (i 1).val ∧ (i 1).val < win0_4.index t (1 : Fin 2) * 32 + 32; omega

/-- THE OUTPUT ARRAY after the run is the layer's output over the launch arrays. -/
theorem final (hin : ∀ c : Dev nD, InRange (m ((c : Thread nD τ).loc main_arg1))) (c : Dev nD) :
    (dats m 0 c).arrAt 4 cfg0.N = layerOut m c :=
  (dats m 0 c).arrAt_eq_of_cover 4 (layerOut m c) (fun t _ => flushed_eq m hin c t) cover

/-- The kernel's run, read: every weakly fair execution ends with the result at the layer's output of the launch
    arrays and the arguments unchanged. -/
theorem run (hin : ∀ c : Dev nD, InRange (m ((c : Thread nD τ).loc main_arg1))) :
    θ_run defs (onTc (τ := τ) (main (F := Ideal))) ⟨m, fun _ => 0, ρ⟩ fun r => ∀ c : Dev nD,
      r.2.mem ((c : Thread nD τ).loc main_v6) = layerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hin c), (h c).2⟩)
    (Cert.KernelIdeal.Value.run_blocks m ρ)

end Cert.KernelIdeal.KernelValue

end
-- ==== Proof.LibGatherRows.lean ====
/-
  Three host operations read at an index, for any extents.

  * A one-operand reduce by bitwise "and" whose initial value and whose every operand element are the bit 1 is the bit 1
    at every result index (`reduce_andi_ones`): a left fold of "and" from 1 over a list of ones stays 1.
  * A ROW TAKE: `table[idx]` of a rank-2 table `[N, C]` at a column of `R` start indices `[R, 1]` (operand axis 0
    collapsed and start-indexed, axis 1 the offset axis, whole rows of `C` entries as slices). Result element `(r, c)` is the table's at
    row "start index of `r`, read signed and clamped into `[0, N − 1]`", column `c` (`rowTakeDims`, `gather_rowTake_apply`).
  * A BATCHED TAKE ALONG THE MIDDLE AXIS: of an operand `[R, S, O]` at start indices `[R, 1, 1]`, operand axis 0 a batching axis
    paired with the start indices' axis 0, axis 1 collapsed and start-indexed, axis 2 the offset axis. Result element
    `(r, 0, o)` is the operand's at `(r, start index of r clamped into [0, S − 1], o)` (`batchTakeDims`,
    `gather_batchTake_apply`).

  Each gather is read through StableHLO's operand index: per operand axis the clamped start, plus the batching coordinate,
  plus the offset coordinate; on each axis two of the three vanish.
-/
import Idealize.ShloMosaic.PureOps.Reduce
import Idealize.ShloMosaic.Lib.ValueIdx

noncomputable section

namespace Idealize.ShloMosaic.GatherRows

open Idealize.ShloMosaic Idealize.ShloMosaic.ValueIdx

/-! ## "and" over ones -/

/-- A left fold of "and" from the bit 1 over any list whose every element reads 1 is 1. -/
theorem foldl_andi_ones {ι : Type} (x : ι → BitVec 1) (hx : ∀ i, x i = 1#1) (L : List ι) :
    L.foldl (fun r i => IntOp.andi r (x i)) 1#1 = 1#1 := by
  induction L with
  | nil => rfl
  | cons a L ih =>
    rw [List.foldl_cons, hx a]
    exact ih

/-- A reduce by "and" from an initial 1 over an operand of ones is 1 at every result index. -/
theorem reduce_andi_ones {s t u : Shape} {axes : List (Fin s.rank)} (x : IVec s 1) (init : IVec u 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_ones x hx _

variable {α : Type}

/-! ## The row take -/

/-- The dimension numbers of a take of whole rows of an `[N, C]` table at `R` start indices kept as a column. -/
abbrev rowTakeDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW TAKE READ AT `(r, c)`: the table at the row the start index of `r` names, read signed and clamped into
    `[0, N − 1]`, and column `c`. -/
theorem gather_rowTake_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowTakeDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    -- the collapsed, start-indexed axis: the clamped start alone
    show (rowTakeDims N R C wf).start (ix2 r c) idx 0 + (rowTakeDims N R C wf).batchCoord (ix2 r c) 0
      + (rowTakeDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N R C wf).startIndexMap from List.mem_singleton.mpr rfl)]
    have hsi : (rowTakeDims N R C wf).siIdx (ix2 r c) ⟨List.idxOf (0 : Fin 2) (rowTakeDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the offset axis: the result's column alone
    show (rowTakeDims N R C wf).start (ix2 r c) idx 1 + (rowTakeDims N R C wf).batchCoord (ix2 r c) 1
      + (rowTakeDims N R C wf).offCoord (ix2 r c) 1 = _
    rw [GatherDims.batchCoord_eq_zero _ _ _ List.not_mem_nil]
    unfold GatherDims.start
    rw [dif_neg (by decide : (1 : Fin 2) ∉ ([0] : List (Fin 2)))]
    simp only [Nat.add_zero, Nat.zero_add]
    rfl

/-! ## The batched take along the middle axis -/

/-- The dimension numbers of a take along the middle axis of an `[R, S, O]` operand, one start index per leading
    coordinate, the leading axis a batching axis. -/
abbrev batchTakeDims (R S O : Nat)
    (wf : GatherDims.WF ⟨3, ![R, S, O]⟩ ⟨3, ![R, 1, 1]⟩ ⟨3, ![R, 1, O]⟩ [2] [1] [0] [1] [0] 2 ![1, 1, O]) :
    GatherDims ⟨3, ![R, S, O]⟩ ⟨3, ![R, 1, 1]⟩ ⟨3, ![R, 1, O]⟩ where
  offsetDims := [2]
  collapsedSliceDims := [1]
  operandBatchingDims := [0]
  startIndicesBatchingDims := [0]
  startIndexMap := [1]
  indexVectorDim := 2
  sliceSizes := ![1, 1, O]
  wf := wf

/-- THE BATCHED TAKE READ AT `(r, z, o)`: the operand at leading coordinate `r`, middle coordinate the start index of
    `r` read signed and clamped into `[0, S − 1]`, and last coordinate `o`. -/
theorem gather_batchTake_apply {R S O w : Nat} (hS : 0 < S)
    (wf : GatherDims.WF ⟨3, ![R, S, O]⟩ ⟨3, ![R, 1, 1]⟩ ⟨3, ![R, 1, O]⟩ [2] [1] [0] [1] [0] 2 ![1, 1, O])
    (x : (⟨3, ![R, S, O]⟩ : Shape).Idx → α) (idx : IVec ⟨3, ![R, 1, 1]⟩ w) (r : Fin R) (z : Fin 1) (o : Fin O) :
    Host.gather (batchTakeDims R S O wf) x idx (ix3 r z o)
      = x (ix3 r ⟨min (idx (ix3 r (0 : Fin 1) (0 : Fin 1))).toInt.toNat (S - 1), by omega⟩ o) := by
  unfold Host.gather
  congr 1
  funext a
  refine Fin.ext ?_
  match a with
  | ⟨0, _⟩ =>
    -- the batching axis: the result's leading coordinate alone
    show (batchTakeDims R S O wf).start (ix3 r z o) idx 0 + (batchTakeDims R S O wf).batchCoord (ix3 r z o) 0
      + (batchTakeDims R S O wf).offCoord (ix3 r z o) 0 = _
    rw [GatherDims.start_batching _ _ _ _ (show (0 : Fin 3) ∈ (batchTakeDims R S O wf).operandBatchingDims from List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 3) ∈ (batchTakeDims R S O wf).operandBatchingDims from List.mem_singleton.mpr rfl)]
    rfl
  | ⟨1, _⟩ =>
    -- the collapsed, start-indexed axis: the clamped start alone
    show (batchTakeDims R S O wf).start (ix3 r z o) idx 1 + (batchTakeDims R S O wf).batchCoord (ix3 r z o) 1
      + (batchTakeDims R S O wf).offCoord (ix3 r z o) 1 = _
    rw [GatherDims.batchCoord_eq_zero _ _ _ (by decide : (1 : Fin 3) ∉ ([0] : List (Fin 3))),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (batchTakeDims R S O wf).startIndexMap from List.mem_singleton.mpr rfl)]
    have hsi : (batchTakeDims R S O wf).siIdx (ix3 r z o) ⟨List.idxOf (1 : Fin 3) (batchTakeDims R S O wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => exact congrArg Fin.val (Subsingleton.elim _ (0 : Fin 1))
      | ⟨2, _⟩ => rfl
    rw [hsi]
    rfl
  | ⟨2, _⟩ =>
    -- the offset axis: the result's last coordinate alone
    show (batchTakeDims R S O wf).start (ix3 r z o) idx 2 + (batchTakeDims R S O wf).batchCoord (ix3 r z o) 2
      + (batchTakeDims R S O wf).offCoord (ix3 r z o) 2 = _
    rw [GatherDims.batchCoord_eq_zero _ _ _ (by decide : (2 : Fin 3) ∉ ([0] : List (Fin 3)))]
    unfold GatherDims.start
    rw [dif_neg (by decide : (2 : Fin 3) ∉ ([1] : List (Fin 3)))]
    simp only [Nat.add_zero, Nat.zero_add]
    rfl

end Idealize.ShloMosaic.GatherRows

end
-- ==== Proof.RefValue.lean ====
/-
  The reference program computes the stacked linear layer of the specification, on every input whose index words are
  below eight.

  The program forms all eight stacks' products  all[r, s, o] = Σ_k x[r, k] · w[s, o, k],  and then picks, for each row
  `r`, the stack its index word names: it wraps a negative word by adding eight (a select on "word < 0"), tests
  0 ≤ word ≤ 7, takes  all[r, word, o]  by a batched take along the middle axis whose start index is clamped into [0, 7],
  keeps it where the range test holds (a fill value elsewhere), drops the unit axis, and adds the bias row taken at the
  wrapped word, again clamped into [0, 7].

  For a word `v` whose value is below eight: "v < 0" is false, so the wrapped word is `v`; both range tests hold, so the
  mask — an "and" over an axis of the two tests' conjunction — is 1 everywhere; `v` read signed is its value, already
  inside [0, 7], so each clamp is the identity; and the stack the specification selects, the value modulo eight, is
  that same value. What remains is the sum of products at the selected stack plus that stack's bias entry.
-/
import proofs.«429537_j74801150427257_3_alg».proof.Proof.RefRead
import proofs.«429537_j74801150427257_3_alg».proof.Proof.Spec
import proofs.«429537_j74801150427257_3_alg».proof.Proof.LibGatherRows
import Idealize.ShloMosaic.Lib.StableHlo.Predicate

noncomputable section

open scoped BigOperators

namespace Cert.ReferenceIdeal.RefValue

open Cert.ReferenceIdeal Cert.ReferenceIdeal.Gen Cert.ReferenceIdeal.ReadP Idealize.ShloMosaic Idealize.ShloMosaic.ValueIdx
open Idealize.ShloMosaic.StableHlo.Predicate Idealize.ShloMosaic.GatherRows Cert.StackedLinear

/-! ## Words below eight -/

/-- A word below eight is not negative: "v < 0" reads 0. -/
theorem slt_zero_of_small (v : BitVec 32) (hv : v.toNat < 8) : IntOp.cmpi .slt v 0#32 = 0#1 := by
  apply eq_zero_of_ne_one
  intro h
  have h0 := (slt_iff_toNat (a := v) (b := 0#32) (by omega) (by decide)).mp h
  exact Nat.not_lt_zero _ h0

/-- A word below eight is at least zero. -/
theorem sge_zero_of_small (v : BitVec 32) (hv : v.toNat < 8) : IntOp.cmpi .sge v 0#32 = 1#1 :=
  (sge_iff_toNat (a := v) (b := 0#32) (by omega) (by decide)).mpr (Nat.zero_le _)

/-- A word below eight is at most seven. -/
theorem sle_seven_of_small (v : BitVec 32) (hv : v.toNat < 8) : IntOp.cmpi .sle v 7#32 = 1#1 := by
  refine (sle_iff_toNat (a := v) (b := 7#32) (by omega) (by decide)).mpr ?_
  have h7 : (7#32 : BitVec 32).toNat = 7 := rfl
  rw [h7]; omega

/-- A word below eight read signed is its value. -/
theorem toInt_toNat_of_small (v : BitVec 32) (hv : v.toNat < 8) : v.toInt.toNat = v.toNat := by
  rw [toInt_eq_toNat_of_lt (a := v) (by omega)]
  exact Int.toNat_natCast _

/-- The wrap of a negative word by eight leaves a word below eight alone. -/
theorem wrap_of_small (v : BitVec 32) (hv : v.toNat < 8) :
    Scalar.select (IntOp.cmpi .slt v 0#32) (IntOp.addi v 8#32) v = v := by
  rw [slt_zero_of_small v hv, select_zero]

/-- The start index a word below eight gives, read signed and clamped into [0, 7], is the stack the word selects. -/
theorem clamp_of_small (v : BitVec 32) (hv : v.toNat < 8) (h : min v.toInt.toNat (8 - 1) < 8) :
    (⟨min v.toInt.toNat (8 - 1), h⟩ : Fin 8) = stackOf v := by
  refine Fin.ext ?_
  show min v.toInt.toNat (8 - 1) = (stackOf v).val
  rw [toInt_toNat_of_small v hv, stackOf_val v hv]
  omega

/-! ## The index words the two takes read -/

variable (x0 : (⟨S262144x512, .f32⟩ : BufTy).Contents (Elt Ideal)) (x1 : (⟨S262144, .i32⟩ : BufTy).Contents (Elt Ideal))
  (x2 : (⟨S8x32x512, .f32⟩ : BufTy).Contents (Elt Ideal)) (x3 : (⟨S8x32, .f32⟩ : BufTy).Contents (Elt Ideal))

/-- The wrapped word of row `r`, as the batched take reads it, is the row's index word. -/
theorem wrapped3_at (hidx : InRange x1) (r : Fin 262144) (a b : Fin 1) :
    val_main_call0_v4 (F := Ideal) x1 (ix3 r a b) = x1 (ix1 r) := by
  have e : idx_main_v1 (ix3 r a b) = ix1 r := by
    funext d; match d with | ⟨0, _⟩ => rfl
  rw [val_main_call0_v4_apply, val_main_call0_v1_apply, val_main_call0_v3_apply, val_main_v1_apply, val_main_call0_v0_apply,
    val_main_call0_c_apply, val_main_call0_v2_apply, val_main_call0_c_0_apply, e]
  exact wrap_of_small _ (hidx r)

/-- The wrapped word of row `r`, as the bias take reads it, is the row's index word. -/
theorem wrapped2_at (hidx : InRange x1) (r : Fin 262144) (a : Fin 1) :
    val_main_v9 (F := Ideal) x1 (ix2 r a) = x1 (ix1 r) := by
  have e : idx_main_v9 (ix2 r a) = ix1 r := by
    funext d; match d with | ⟨0, _⟩ => rfl
  rw [val_main_v9_apply, e, val_main_v8_apply, val_main_v5_apply, val_main_v7_apply, val_main_v4_apply, val_main_c_apply,
    val_main_v6_apply, val_main_c_0_apply]
  exact wrap_of_small _ (hidx r)

/-! ## The range mask is 1 everywhere -/

/-- Both range tests hold at every row. -/
theorem tests_at (hidx : InRange x1) (i : S262144x1x1.Idx) : val_main_call0_v10 (F := Ideal) x1 i = 1#1 := by
  obtain ⟨r, a, b, rfl⟩ : ∃ (r : Fin 262144) (a b : Fin 1), i = ix3 r a b := ⟨i 0, i 1, i 2, eq_ix3 i⟩
  rw [val_main_call0_v10_apply, val_main_call0_v6_apply, val_main_call0_v9_apply, wrapped3_at x1 hidx, val_main_call0_v5_apply,
    val_main_call0_c_2_apply, val_main_call0_v8_apply, val_main_call0_v7_apply, val_main_call0_c_1_apply,
    sge_zero_of_small _ (hidx r), sle_seven_of_small _ (hidx r)]
  rfl

/-- Their "and" over the unit axis is 1 at every row. -/
theorem mask_at (hidx : InRange x1) (j : S262144x1.Idx) : val_main_call0_v11 (F := Ideal) x1 j = 1#1 := by
  unfold val_main_call0_v11
  exact reduce_andi_ones _ _ _ _ (tests_at x1 hidx) (fun _ => rfl) j

/-! ## The two takes -/

/-- The batched take at `(r, 0, o)`: the selected stack's sum of products. -/
theorem take_at (hidx : InRange x1) (r : Fin 262144) (z : Fin 1) (o : Fin 32) :
    val_main_call0_v12 (F := Ideal) x0 x1 x2 (ix3 r z o)
      = ∑ k : Fin 512, x0 (ix2 r k) * x2 (ix3 (stackOf (x1 (ix1 r))) o k) := by
  unfold val_main_call0_v12
  refine (gather_batchTake_apply (R := 262144) (S := 8) (O := 32) (by decide)
    gather_S262144x8x32_S262144x1x1_S262144x1x32_2_1_0_0_1_2_1132_wf (val_main_v0 (F := Ideal) x0 x2)
    (val_main_call0_v4 (F := Ideal) x1) r z o).trans ?_
  have hw := wrapped3_at x1 hidx r 0 0
  rw [clamp_of_small _ (by rw [hw]; exact hidx r), hw, val_main_v0_apply]
  refine Finset.sum_congr rfl fun k _ => ?_
  have el : lidx_main_v0 (ix3 r (stackOf (x1 (ix1 r))) o) k = ix2 r k := by
    funext d; match d with | ⟨0, _⟩ => rfl | ⟨1, _⟩ => rfl
  have er : ridx_main_v0 (ix3 r (stackOf (x1 (ix1 r))) o) k = ix3 (stackOf (x1 (ix1 r))) o k := by
    funext d; match d with | ⟨0, _⟩ => rfl | ⟨1, _⟩ => rfl | ⟨2, _⟩ => rfl
  rw [el, er]

/-- The bias take at `(r, o)`: the selected stack's bias entry. -/
theorem bias_at (hidx : InRange x1) (r : Fin 262144) (o : Fin 32) :
    val_main_v10 (F := Ideal) x1 x3 (ix2 r o) = x3 (ix2 (stackOf (x1 (ix1 r))) o) := by
  unfold val_main_v10
  refine (gather_rowTake_apply (N := 8) (R := 262144) (C := 32) (by decide)
    gather_S8x32_S262144x1_S262144x32_1_0_n_n_0_1_132_wf x3 (val_main_v9 (F := Ideal) x1) r o).trans ?_
  have hw := wrapped2_at x1 hidx r 0
  rw [clamp_of_small _ (by rw [hw]; exact hidx r), hw]

/-! ## The reference is the specification -/

theorem ref_eq_out (x0 : (⟨S262144x512, .f32⟩ : BufTy).Contents (Elt Ideal)) (x1 : (⟨S262144, .i32⟩ : BufTy).Contents (Elt Ideal)) (x2 : (⟨S8x32x512, .f32⟩ : BufTy).Contents (Elt Ideal)) (x3 : (⟨S8x32, .f32⟩ : BufTy).Contents (Elt Ideal)) (hidx : Cert.StackedLinear.InRange x1) :
    Cert.ReferenceIdeal.ReadP.val_main_v11 (F := Ideal) x0 x1 x2 x3 = Cert.StackedLinear.out x0 x1 x2 x3 := by
  funext j
  obtain ⟨r, o, rfl⟩ : ∃ (r : Fin 262144) (o : Fin 32), j = ix2 r o := ⟨j 0, j 1, eq_ix2 j⟩
  -- dropping the unit axis reads `(r, 0, o)`
  have e3 : idx_main_v3 (ix2 r o) = ix3 r (0 : Fin 1) o := by
    funext d; refine Fin.ext ?_
    match d with
    | ⟨0, _⟩ => show (r.val * 32 + o.val) / 32 = r.val; omega
    | ⟨1, _⟩ => rfl
    | ⟨2, _⟩ => show (r.val * 32 + o.val) % 32 = o.val; omega
  rw [val_main_v11_apply, val_main_v3_apply, e3, val_main_v2_apply, val_main_call0_v13_apply, mask_at x1 hidx, select_one,
    take_at x0 x1 x2 hidx, bias_at x1 x3 hidx]
  rfl

end Cert.ReferenceIdeal.RefValue

end
-- ==== Proof.PreRange.lean ====
/-
  The precondition read back.  The printed predicate ends in the conjunction of three finiteness tests with a test that
  every index word `v` satisfies `0 ≤ v` and `v < 8` as signed words, folded by `and` over the whole array.  When the
  predicate's one result is 1, the fold is 1, so the test holds at every index; a signed word that is nonnegative and
  below eight has a value below eight.
-/
import proofs.«429537_j74801150427257_3_alg».proof.Pre_finite_inputs
import proofs.«429537_j74801150427257_3_alg».proof.Proof.Spec
import Idealize.ShloMosaic.Lib.ReduceAll
import Idealize.ShloMosaic.Lib.StableHlo.Predicate

namespace Cert.StackedLinear.PreRange

open Idealize.ShloMosaic Idealize.ShloMosaic.ValueIdx

/-- The rank-0 shape has one index. -/
instance : Subsingleton Cert.Pre_finite_inputs.S_.Idx := ⟨fun a b => funext fun d => d.elim0⟩

/-- A 32-bit word that is nonnegative and below eight as a signed word has a value below eight. -/
theorem toNat_lt_eight (v : BitVec 32) (h0 : (0#32 : BitVec 32).toInt ≤ v.toInt) (h8 : v.toInt < (8#32 : BitVec 32).toInt) :
    v.toNat < 8 := by
  have e0 : (0#32 : BitVec 32).toInt = 0 := by decide
  have e8 : (8#32 : BitVec 32).toInt = 8 := by decide
  rw [e0] at h0
  rw [e8] at h8
  rw [BitVec.toInt_eq_toNat_cond] at h0 h8
  have := v.isLt
  split at h0 <;> omega

theorem inRange_of_pre {F : FTy → Type} [FloatOps F] [Cert.Pre_finite_inputs.Facts] (a0 : FVec F Cert.Pre_finite_inputs.S262144x512 .f32) (a1 : IVec Cert.Pre_finite_inputs.S262144 32) (a2 : FVec F Cert.Pre_finite_inputs.S8x32x512 .f32) (a3 : FVec F Cert.Pre_finite_inputs.S8x32 .f32)
    (h : Cert.Pre_finite_inputs.fn (F := F) a0 a1 a2 a3 = fun _ => 1#1) : Cert.StackedLinear.InRange a1 := by
  intro r
  have h0 := congrFun h ValueIdx.ix0
  dsimp only [Cert.Pre_finite_inputs.fn, Cert.Pre_finite_inputs.fn_part1] at h0
  -- the last conjunct is the fold of the range test over the index array
  have hall := (IntOp.andi_eq_one.1 h0).2
  -- so the range test is 1 at row `r`
  have hr := Host.reduce_andi_all _ _ _ _ _ hall (ix1 r)
  obtain ⟨hge, hlt⟩ := IntOp.andi_eq_one.1 hr
  -- the scalars 0 and 8 broadcast to the array read 0 and 8 at every index
  have hge' := IntOp.cmpi_sge.1 hge
  have hlt' := IntOp.cmpi_slt.1 hlt
  rw [StableHlo.Predicate.bcast_scalar _ Cert.Pre_finite_inputs.Facts.h_S_] at hge' hlt'
  exact toNat_lt_eight _ hge' hlt'

end Cert.StackedLinear.PreRange
-- ==== Proof.lean ====
/- The proof of `Cert.Claim` (proofs.«429537_j74801150427257_3_alg».proof.Defs): a stacked linear layer.
   For each of 262144 rows an index word in 0..7 selects one of eight 32 × 512 weight matrices and bias rows, and the
   row's output is `x[r] · w[s]ᵀ + b[s]` (Proof/Spec.lean).  The statement's precondition asks, besides finite floats,
   that every index word is in 0..7: outside that range the reference's own `take_along_axis` reads out of range.

   The kernel computes all eight stacks' results side by side in 256 lanes with one matrix product, keeps per row the
   32 lanes whose stack number is the (clamped) index word, zeroes the rest and adds the eight lane groups
   (Proof/Payload.lean over Proof/MaskedSum.lean: on the extended reals adding zeros changes nothing, so no finiteness
   is used); its host lines lay the weights out as [512, 256], the bias as [256] and the clamped words as
   [64, 1, 4096] (Proof/Windows.lean), and its 64 grid points tile the output (Proof/KernelValue.lean).  The reference
   computes all eight products with one `dot_general`, gathers the selected one per row and adds the gathered bias
   (Proof/RefValue.lean over Proof/LibGatherRows.lean).  Both are the specification's function of the arguments, index
   by index; the range of the index words is read back from the precondition in Proof/PreRange.lean.
   The three frames are the programs' runs with the results dropped; the idealization rewrote nothing, so `preserves`
   is `True`. -/
import proofs.«429537_j74801150427257_3_alg».proof.Defs
import proofs.«429537_j74801150427257_3_alg».proof.Proof.Gen.Kernel
import proofs.«429537_j74801150427257_3_alg».proof.Proof.Gen.Kernel.Skeleton
import proofs.«429537_j74801150427257_3_alg».proof.Proof.Gen.Kernel.Launch
import proofs.«429537_j74801150427257_3_alg».proof.Proof.Gen.Kernel.Points
import proofs.«429537_j74801150427257_3_alg».proof.Proof.Gen.Kernel.Frame
import proofs.«429537_j74801150427257_3_alg».proof.Proof.Gen.KernelIdeal
import proofs.«429537_j74801150427257_3_alg».proof.Proof.Gen.KernelIdeal.Skeleton
import proofs.«429537_j74801150427257_3_alg».proof.Proof.Gen.KernelIdeal.Launch
import proofs.«429537_j74801150427257_3_alg».proof.Proof.Gen.KernelIdeal.Points
import proofs.«429537_j74801150427257_3_alg».proof.Proof.Gen.KernelIdeal.Frame
import proofs.«429537_j74801150427257_3_alg».proof.Proof.Gen.ReferenceIdeal
import proofs.«429537_j74801150427257_3_alg».proof.Proof.Gen.Pre_finite_inputs
import proofs.«429537_j74801150427257_3_alg».proof.Proof.Gen.KernelIdeal.Value
import proofs.«429537_j74801150427257_3_alg».proof.Proof.KernelValue
import proofs.«429537_j74801150427257_3_alg».proof.Proof.RefValue
import proofs.«429537_j74801150427257_3_alg».proof.Proof.PreRange
import Idealize.ShloMosaic.Adequacy
import Idealize.ShloMosaic.Init

noncomputable section

namespace Cert.Proof

open Idealize.ShloMosaic Idealize.ShloMosaic.TcCoe Idealize.SL.Sem

/-- Under the precondition every index word, on every core, is below eight. -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.StackedLinear.InRange (m ((c : Thread Cert.KernelIdeal.nD Cert.KernelIdeal.τ).loc Cert.KernelIdeal.main_arg1)) :=
  Cert.StackedLinear.PreRange.inRange_of_pre _ _ _ _ (h c)

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the layer's output of the (agreeing) argument arrays. -/
theorem algebraic : Cert.algebraic_KernelIdeal_ReferenceIdeal := by
  intro m ρ m' ρ' hpre hagree
  have hin := inRange_of_pre m hpre
  refine ⟨fun c => Cert.KernelIdeal.KernelValue.layerOut m c, Cert.KernelIdeal.KernelValue.run m ρ hin, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v11_eq, (hagree c).1, (hagree c).2.1, (hagree c).2.2.1, (hagree c).2.2.2]
  exact Cert.ReferenceIdeal.RefValue.ref_eq_out _ _ _ _ (hin c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
